-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x4096 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S256x4096 : Shape := ⟨2, ![256, 4096]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S256x4096_o0_0_S256x1024 : S256x4096.Slices ![0, 0] S256x1024
  broadcasts_S1x1024_S256x1024 : S1x1024.Broadcasts S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  concatenates_S256x1024_S256x1024_S256x1024_S256x1024_S256x4096_d1 : Shape.Concatenates [S256x1024, S256x1024, S256x1024, S256x1024] S256x4096 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .f32 = 32 ∨ (Rect.block (s := S8192x4096) S256x4096.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x1024 : Shape := ⟨2, ![1024, 1024]⟩
abbrev S1024 : Shape := ⟨1, ![1024]⟩
abbrev S8192x4x1024 : Shape := ⟨3, ![8192, 4, 1024]⟩
abbrev S4x8192x1024 : Shape := ⟨3, ![4, 8192, 1024]⟩
abbrev S1x1x1024 : Shape := ⟨3, ![1, 1, 1024]⟩
abbrev S1x8192x1024 : Shape := ⟨3, ![1, 8192, 1024]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8192x4x1024, .f32⟩
  | .hbm, ⟨7, _⟩ => ⟨S4x8192x1024, .f32⟩
  | .hbm, ⟨8, _⟩ => ⟨S4x8192x1024, .f32⟩
  | .hbm, ⟨9, _⟩ => ⟨S1x1x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S8192x1024, .f32⟩
  | .hbm, ⟨19, _⟩ => ⟨S8192x1024, .f32⟩
  | .hbm, ⟨20, _⟩ => ⟨S1x8192x1024, .f32⟩
  | .hbm, ⟨21, _⟩ => ⟨S8192x1024, .f32⟩
  | .hbm, ⟨22, _⟩ => ⟨S8192x1024, .f32⟩
  | .hbm, ⟨23, _⟩ => ⟨S1x8192x1024, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S1x8192x1024, .f32⟩
  | .hbm, ⟨29, _⟩ => ⟨S8192x1024, .f32⟩
  | .hbm, ⟨30, _⟩ => ⟨S8192x1024, .f32⟩
  | .hbm, ⟨31, _⟩ => ⟨S1x8192x1024, .f32⟩
  | .hbm, ⟨32, _⟩ => ⟨S8192x1024, .f32⟩
  | .hbm, ⟨33, _⟩ => ⟨S8192x1024, .f32⟩
  | .hbm, ⟨34, _⟩ => ⟨S1x8192x1024, .f32⟩
  | .hbm, ⟨35, _⟩ => ⟨S8192x1024, .f32⟩
  | .hbm, ⟨36, _⟩ => ⟨S8192x1024, .f32⟩
  | .hbm, ⟨37, _⟩ => ⟨S1x8192x1024, .f32⟩
  | .hbm, ⟨38, _⟩ => ⟨S8192x1024, .f32⟩
  | .hbm, ⟨39, _⟩ => ⟨S1x8192x1024, .f32⟩
  | .hbm, ⟨40, _⟩ => ⟨S8192x1024, .f32⟩
  | .hbm, ⟨41, _⟩ => ⟨S8192x1024, .f32⟩
  | .hbm, ⟨42, _⟩ => ⟨S1x8192x1024, .f32⟩
  | .hbm, ⟨43, _⟩ => ⟨S8192x1024, .f32⟩
  | .hbm, ⟨44, _⟩ => ⟨S8192x1024, .f32⟩
  | .hbm, ⟨45, _⟩ => ⟨S1x8192x1024, .f32⟩
  | .hbm, ⟨46, _⟩ => ⟨S8192x1024, .f32⟩
  | .hbm, ⟨47, _⟩ => ⟨S8192x1024, .f32⟩
  | .hbm, ⟨48, _⟩ => ⟨S1x8192x1024, .f32⟩
  | .hbm, ⟨49, _⟩ => ⟨S8192x1024, .f32⟩
  | .hbm, ⟨50, _⟩ => ⟨S1x8192x1024, .f32⟩
  | .hbm, ⟨51, _⟩ => ⟨S8192x1024, .f32⟩
  | .hbm, ⟨52, _⟩ => ⟨S8192x1024, .f32⟩
  | .hbm, ⟨53, _⟩ => ⟨S1x8192x1024, .f32⟩
  | .hbm, ⟨54, _⟩ => ⟨S8192x1024, .f32⟩
  | .hbm, ⟨55, _⟩ => ⟨S8192x1024, .f32⟩
  | .hbm, ⟨56, _⟩ => ⟨S1x8192x1024, .f32⟩
  | .hbm, ⟨57, _⟩ => ⟨S8192x1024, .f32⟩
  | .hbm, ⟨58, _⟩ => ⟨S8192x1024, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩

abbrev nD : Nat := 1
abbrev τ : Topo := Topo.v7x

variable {F : FTy → Type} [FloatOps F]

class Facts₀ : Prop where
  shapeCasts_S8192x4096_S8192x4x1024 : S8192x4096.ShapeCasts S8192x4x1024
  transposes_S8192x4x1024_S4x8192x1024_1_0_2 : S8192x4x1024.Transposes [1, 0, 2] S4x8192x1024
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  concatenates_S8192x1024_S8192x1024_S8192x1024_S8192x1024_S8192x4096_d1 : Shape.Concatenates [S8192x1024, S8192x1024, S8192x1024, S8192x1024] S8192x4096 1
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Hamilton.lean ====
/-
  The quaternion dense layer, one row at a time, over the extended reals.

  A row of 4096 entries is read as four quarters of 1024 (the components r, i, j, k of 1024 quaternions).  Four
  weight matrices of 1024 × 1024 act on each quarter, giving sixteen quarter-sized products; a bias is added to the
  products of the first matrix.  The Hamilton rule combines them into the four quarters of the output row:

      out_r = (Rr₀ − Ri₁) − Rj₂ − Rk₃        out_i = (Ri₀ + Rr₁) + Rk₂ − Rj₃
      out_j = (Rj₀ − Rk₁) + Rr₂ + Ri₃        out_k = (Rk₀ + Rj₁) − Ri₂ + Rr₃

  where `R·_c` is the matrix applied to quarter `c` (`Rr_c` with the bias).  The sums and differences are kept in
  exactly this order: on the extended reals nothing is rearranged, so no entry needs to be finite.
-/
import proofs.«135336_j16252156248077_1_alg».proof.Proof.LibRowOps

noncomputable section

open scoped BigOperators

namespace Hamilton

open Idealize.ShloMosaic Idealize.ShloMosaic.ValueIdx RowOps

/-- Column `k` of quarter `c` of a row of 4096. -/
def qcol (c : Fin 4) (k : Fin 1024) : Fin 4096 :=
  ⟨c.val * 1024 + k.val, by have := c.isLt; have := k.isLt; omega⟩

/-- One weight matrix `w` (read as `w o k`: output `o`, input `k`) applied to quarter `c` of the row `xr`. -/
def qlin (w : Fin 1024 → Fin 1024 → EReal) (xr : Fin 4096 → EReal) (c : Fin 4) (o : Fin 1024) : EReal :=
  ∑ k : Fin 1024, xr (qcol c k) * w o k

section Parts
variable (wrr wri wrj wrk : Fin 1024 → Fin 1024 → EReal) (b : Fin 1024 → EReal) (xr : Fin 4096 → EReal)

/-- The real quarter of the output row. -/
def partR : Fin 1024 → EReal := fun o =>
  (((qlin wrr xr 0 o + b o) - qlin wri xr 1 o) - qlin wrj xr 2 o) - qlin wrk xr 3 o

/-- The i quarter. -/
def partI : Fin 1024 → EReal := fun o =>
  ((qlin wri xr 0 o + (qlin wrr xr 1 o + b o)) + qlin wrk xr 2 o) - qlin wrj xr 3 o

/-- The j quarter. -/
def partJ : Fin 1024 → EReal := fun o =>
  ((qlin wrj xr 0 o - qlin wrk xr 1 o) + (qlin wrr xr 2 o + b o)) + qlin wri xr 3 o

/-- The k quarter. -/
def partK : Fin 1024 → EReal := fun o =>
  ((qlin wrk xr 0 o + qlin wrj xr 1 o) - qlin wri xr 2 o) + (qlin wrr xr 3 o + b o)

/-- The output row: the four quarters laid end to end. -/
def hamRow : Fin 4096 → EReal :=
  cat4 4096 (partR wrr wri wrj wrk b xr) (partI wrr wri wrj wrk b xr) (partJ wrr wri wrj wrk b xr)
    (partK wrr wri wrj wrk b xr)

end Parts

/-- The whole layer: row `n` of the result is the Hamilton combination of row `n` of `x`, the weights read as
    `W (o, k)` and the bias as `b o`. -/
def G (x : (⟨2, ![8192, 4096]⟩ : Shape).Idx → EReal) (Wrr Wri Wrj Wrk : (⟨2, ![1024, 1024]⟩ : Shape).Idx → EReal)
    (b : (⟨1, ![1024]⟩ : Shape).Idx → EReal) : (⟨2, ![8192, 4096]⟩ : Shape).Idx → EReal :=
  fun i => hamRow (fun o k => Wrr (ix2 o k)) (fun o k => Wri (ix2 o k)) (fun o k => Wrj (ix2 o k))
    (fun o k => Wrk (ix2 o k)) (fun o => b (ix1 o)) (fun j => x (ix2 (i 0) j)) (i 1)

theorem G_apply (x : (⟨2, ![8192, 4096]⟩ : Shape).Idx → EReal) (Wrr Wri Wrj Wrk : (⟨2, ![1024, 1024]⟩ : Shape).Idx → EReal)
    (b : (⟨1, ![1024]⟩ : Shape).Idx → EReal) (n : Fin 8192) (j : Fin 4096) :
    G x Wrr Wri Wrj Wrk b (ix2 n j)
      = hamRow (fun o k => Wrr (ix2 o k)) (fun o k => Wri (ix2 o k)) (fun o k => Wrj (ix2 o k))
          (fun o k => Wrk (ix2 o k)) (fun o => b (ix1 o)) (fun j => x (ix2 n j)) j := rfl

/-- The value of `qcol`, quarter by quarter. -/
theorem qcol_val (c : Fin 4) (k : Fin 1024) : (qcol c k).val = c.val * 1024 + k.val := rfl

end Hamilton

end
-- ==== Proof.BlockValue.lean ====
/-
  What the kernel body stores, entry by entry.

  The body loads a block of 256 rows of the input, the four weight matrices (already transposed: entry `(k, o)` is
  the weight from input `k` to output `o`) and the bias as one row.  For each quarter `c` of the columns it forms the
  four products of that quarter with the four matrices, adds the bias to the first, and accumulates them by the Hamilton
  rule into four accumulators that start at zero; the four accumulators are stored side by side.

  Here: each product at `(p, o)` is the sum over `k` of entry `(p, c·1024 + k)` of the block times entry `(k, o)` of
  the matrix (narrowing to a shorter float format changes nothing over the extended reals); the zero the accumulators start
  from disappears (`0 + a = a`); and so row `p` of what is stored is the Hamilton combination of row `p` of the block.
-/
import proofs.«135336_j16252156248077_1_alg».proof.Proof.Gen.KernelIdeal.Skeleton
import proofs.«135336_j16252156248077_1_alg».proof.Proof.Hamilton

noncomputable section

open scoped BigOperators

namespace Cert.KernelIdeal.Block

open Cert.KernelIdeal Cert.KernelIdeal.Gen Idealize.ShloMosaic Idealize.ShloMosaic.ValueIdx Hamilton RowOps

/-- The printed contraction is the plain one: rows of the left operand against columns of the right. -/
theorem dot_plain : dot_S256x1024_S1024x1024_S256x1024_1_0_0_1_n_n = DotDims.plain 256 1024 1024 := rfl

/-- Quarter `c` of the block's columns, narrowed: entry `(p, k)` is entry `(p, c·1024 + k)` of the block. -/
theorem quarter_apply (x0 : Vec Ideal S256x4096 .f32) (off : ℕ) (hs : S256x4096.Slices ![0, off] S256x1024)
    (hb : FTy.bits .bf16 < FTy.bits .f32) (c : Fin 4) (hc : off = c.val * 1024) (p : Fin 256) (k : Fin 1024) :
    (truncf .bf16 (extractStridedSlice S256x1024 ![0, off] x0 hs) hb : FVec Ideal S256x1024 .bf16) (ix2 p k)
      = x0 (ix2 p (qcol c k)) := by
  rw [truncf_apply]
  refine extractStridedSlice_apply _ x0 hs (ix2 p k) (ix2 p (qcol c k)) fun a => ?_
  match a with
  | ⟨0, _⟩ => show p.val = 0 + p.val; omega
  | ⟨1, _⟩ => show c.val * 1024 + k.val = off + k.val; omega

/-- One of the sixteen products at `(p, o)`: quarter `c` of row `p` of the block against column `o` of the matrix. -/
theorem prod_apply (x0 : Vec Ideal S256x4096 .f32) (w : Vec Ideal S1024x1024 .bf16) (off : ℕ)
    (hs : S256x4096.Slices ![0, off] S256x1024) (hb : FTy.bits .bf16 < FTy.bits .f32)
    (hsc : S1024x1024.ShapeCasts S1024x1024) (c : Fin 4) (hc : off = c.val * 1024) (p : Fin 256) (o : Fin 1024) :
    matmul (F := Ideal) dot_S256x1024_S1024x1024_S256x1024_1_0_0_1_n_n none
        (truncf .bf16 (extractStridedSlice S256x1024 ![0, off] x0 hs) hb) (shapeCast S1024x1024 w hsc : FVec Ideal S1024x1024 .bf16)
        (constant S256x1024 .f32 0x00000000#32) (ix2 p o)
      = qlin (fun o k => w (ix2 k o)) (fun j => x0 (ix2 p j)) c o := by
  rw [RowOps.matmul_plain_apply _ dot_plain, shapeCast_self]
  unfold qlin
  refine Finset.sum_congr rfl fun k _ => ?_
  rw [quarter_apply x0 off hs hb c hc p k]

/-- The bias row broadcast down the rows: at `(p, o)` it is entry `o` of the row. -/
theorem bias_apply (x5 : Vec Ideal S1x1024 .f32) (hsc : S1x1024.ShapeCasts S1x1024) (hbc : S1x1024.Broadcasts S256x1024)
    (p : Fin 256) (o : Fin 1024) :
    broadcastTo S256x1024 (shapeCast S1x1024 x5 hsc) hbc (ix2 p o) = x5 (ix2 (0 : Fin 1) o) := by
  rw [broadcastTo_1b_ab_apply, shapeCast_self]

/-- The zero the accumulators start from. -/
theorem zero_splat_apply (p : Fin 256) (o : Fin 1024) :
    (broadcast S256x1024 (Scalar.ofBits (F := Ideal) .f32 0x00000000#32) : FVec Ideal S256x1024 .f32) (ix2 p o) = 0 := by
  rw [broadcast_apply]
  exact Ideal.ofBits_zero_f32

/-! ## The body's values, entry by entry -/

/-- A transposed weight block read with the output index first. -/
abbrev wT (w : Vec Ideal S1024x1024 .bf16) : Fin 1024 → Fin 1024 → EReal := fun o k => w (ix2 k o)
/-- The bias row as a function of the output index. -/
abbrev brow (x5 : Vec Ideal S1x1024 .f32) : Fin 1024 → EReal := fun o => x5 (ix2 (0 : Fin 1) o)
/-- Row `p` of the input block. -/
abbrev xrow (x0 : Vec Ideal S256x4096 .f32) (p : Fin 256) : Fin 4096 → EReal := fun j => x0 (ix2 p j)

section Payloads
variable (x0 : Vec Ideal S256x4096 .f32) (x1 x2 x3 x4 : Vec Ideal S1024x1024 .bf16) (x5 : Vec Ideal S1x1024 .f32)
  (p : Fin 256) (o : Fin 1024)

/-- Quarter 0 against the first matrix, with the bias, onto the zero accumulator. -/
theorem pay8_apply : k0_pay8 (F := Ideal) x0 x1 x5 (ix2 p o) = qlin (wT x1) (xrow x0 p) 0 o + brow x5 o := by
  unfold k0_pay8 k0_pay7 k0_pay2 k0_pay6
  dsimp only
  rw [addf_apply, addf_apply, zero_splat_apply, zero_add, prod_apply x0 x1 0 _ _ _ 0 (by decide) p o, bias_apply]

/-- Quarter 0 against the second matrix, onto the zero accumulator. -/
theorem pay9_apply : k0_pay9 (F := Ideal) x0 x2 (ix2 p o) = qlin (wT x2) (xrow x0 p) 0 o := by
  unfold k0_pay9 k0_pay7 k0_pay3
  dsimp only
  rw [addf_apply, zero_splat_apply, zero_add, prod_apply x0 x2 0 _ _ _ 0 (by decide) p o]

/-- Quarter 0 against the third matrix, onto the zero accumulator. -/
theorem pay10_apply : k0_pay10 (F := Ideal) x0 x3 (ix2 p o) = qlin (wT x3) (xrow x0 p) 0 o := by
  unfold k0_pay10 k0_pay7 k0_pay4
  dsimp only
  rw [addf_apply, zero_splat_apply, zero_add, prod_apply x0 x3 0 _ _ _ 0 (by decide) p o]

/-- Quarter 0 against the fourth matrix, onto the zero accumulator. -/
theorem pay11_apply : k0_pay11 (F := Ideal) x0 x4 (ix2 p o) = qlin (wT x4) (xrow x0 p) 0 o := by
  unfold k0_pay11 k0_pay7 k0_pay5
  dsimp only
  rw [addf_apply, zero_splat_apply, zero_add, prod_apply x0 x4 0 _ _ _ 0 (by decide) p o]

/-- Quarter 1 against the first matrix, with the bias. -/
theorem pay13_apply : k0_pay13 (F := Ideal) x0 x1 x5 (ix2 p o) = qlin (wT x1) (xrow x0 p) 1 o + brow x5 o := by
  unfold k0_pay13 k0_pay12 k0_pay2 k0_pay6
  dsimp only
  rw [addf_apply, prod_apply x0 x1 1024 _ _ _ 1 (by decide) p o, bias_apply]

/-- Quarter 1 against the second matrix. -/
theorem pay14_apply : k0_pay14 (F := Ideal) x0 x2 (ix2 p o) = qlin (wT x2) (xrow x0 p) 1 o := by
  unfold k0_pay14 k0_pay12 k0_pay3
  dsimp only
  rw [prod_apply x0 x2 1024 _ _ _ 1 (by decide) p o]

/-- Quarter 1 against the third matrix. -/
theorem pay15_apply : k0_pay15 (F := Ideal) x0 x3 (ix2 p o) = qlin (wT x3) (xrow x0 p) 1 o := by
  unfold k0_pay15 k0_pay12 k0_pay4
  dsimp only
  rw [prod_apply x0 x3 1024 _ _ _ 1 (by decide) p o]

/-- Quarter 1 against the fourth matrix. -/
theorem pay16_apply : k0_pay16 (F := Ideal) x0 x4 (ix2 p o) = qlin (wT x4) (xrow x0 p) 1 o := by
  unfold k0_pay16 k0_pay12 k0_pay5
  dsimp only
  rw [prod_apply x0 x4 1024 _ _ _ 1 (by decide) p o]

/-- What the body stores, at `(p, j)`: entry `j` of the Hamilton combination of row `p` of the block. -/
theorem stored_apply (j : Fin 4096) :
    k0_pay1 (F := Ideal) x0 (k0_pay2 x1) (k0_pay3 x2) (k0_pay4 x3) (k0_pay5 x4) (k0_pay6 x5) (k0_pay8 x0 x1 x5)
        (k0_pay9 x0 x2) (k0_pay10 x0 x3) (k0_pay11 x0 x4) (k0_pay13 x0 x1 x5) (k0_pay14 x0 x2) (k0_pay15 x0 x3)
        (k0_pay16 x0 x4) (ix2 p j)
      = hamRow (wT x1) (wT x2) (wT x3) (wT x4) (brow x5) (xrow x0 p) j := by
  unfold k0_pay1 k0_pay2 k0_pay3 k0_pay4 k0_pay5 k0_pay6
  dsimp only
  rw [RowOps.cat4_apply _ _ _ _ _ (by norm_num) p j]
  unfold hamRow
  congr 1 <;> funext o
  · unfold partR
    simp only [subf_apply, addf_apply]
    rw [pay8_apply, pay14_apply, prod_apply x0 x3 2048 _ _ _ 2 (by decide) p o,
      prod_apply x0 x4 3072 _ _ _ 3 (by decide) p o]
  · unfold partI
    simp only [subf_apply, addf_apply]
    rw [pay9_apply, pay13_apply, prod_apply x0 x4 2048 _ _ _ 2 (by decide) p o,
      prod_apply x0 x3 3072 _ _ _ 3 (by decide) p o]
  · unfold partJ
    simp only [subf_apply, addf_apply]
    rw [pay10_apply, pay16_apply, prod_apply x0 x1 2048 _ _ _ 2 (by decide) p o, bias_apply,
      prod_apply x0 x2 3072 _ _ _ 3 (by decide) p o]
  · unfold partK
    simp only [subf_apply, addf_apply]
    rw [pay11_apply, pay15_apply, prod_apply x0 x2 2048 _ _ _ 2 (by decide) p o,
      prod_apply x0 x1 3072 _ _ _ 3 (by decide) p o, bias_apply]

end Payloads

/-! ## A block of the result is a block of the layer -/

/-- If the input block's row `y 0` is row `i 0` of the array `X`, the weight blocks are the transposes of `W1 … W4` and
    the bias row is `B`, then what the body stores at `y` is the layer `G` at `i` — for `i` in the same column as `y`. -/
theorem block_eq (X : S8192x4096.Idx → EReal) (W1 W2 W3 W4 : S1024x1024.Idx → EReal) (B : S1024.Idx → EReal)
    (x0 : Vec Ideal S256x4096 .f32) (x1 x2 x3 x4 : Vec Ideal S1024x1024 .bf16) (x5 : Vec Ideal S1x1024 .f32)
    (y : S256x4096.Idx) (i : S8192x4096.Idx)
    (hx0 : ∀ q : Fin 4096, x0 (ix2 (y 0) q) = X (ix2 (i 0) q))
    (hx1 : ∀ k o : Fin 1024, x1 (ix2 k o) = W1 (ix2 o k)) (hx2 : ∀ k o : Fin 1024, x2 (ix2 k o) = W2 (ix2 o k))
    (hx3 : ∀ k o : Fin 1024, x3 (ix2 k o) = W3 (ix2 o k)) (hx4 : ∀ k o : Fin 1024, x4 (ix2 k o) = W4 (ix2 o k))
    (hx5 : ∀ o : Fin 1024, x5 (ix2 (0 : Fin 1) o) = B (ix1 o)) (hi1 : (i 1).val = (y 1).val) :
    k0_pay1 (F := Ideal) x0 (k0_pay2 x1) (k0_pay3 x2) (k0_pay4 x3) (k0_pay5 x4) (k0_pay6 x5) (k0_pay8 x0 x1 x5)
        (k0_pay9 x0 x2) (k0_pay10 x0 x3) (k0_pay11 x0 x4) (k0_pay13 x0 x1 x5) (k0_pay14 x0 x2) (k0_pay15 x0 x3)
        (k0_pay16 x0 x4) y
      = G X W1 W2 W3 W4 B i := by
  obtain ⟨p, j, rfl⟩ : ∃ (p : Fin 256) (j : Fin 4096), y = ix2 p j := ⟨y 0, y 1, eq_ix2 y⟩
  obtain ⟨n, j', rfl⟩ : ∃ (n : Fin 8192) (j' : Fin 4096), i = ix2 n j' := ⟨i 0, i 1, eq_ix2 i⟩
  obtain rfl : j' = j := Fin.ext hi1
  rw [stored_apply, G_apply]
  have e0 : xrow x0 p = fun q => X (ix2 n q) := funext hx0
  have e1 : wT x1 = fun o k => W1 (ix2 o k) := funext fun o => funext fun k => hx1 k o
  have e2 : wT x2 = fun o k => W2 (ix2 o k) := funext fun o => funext fun k => hx2 k o
  have e3 : wT x3 = fun o k => W3 (ix2 o k) := funext fun o => funext fun k => hx3 k o
  have e4 : wT x4 = fun o k => W4 (ix2 o k) := funext fun o => funext fun k => hx4 k o
  have e5 : brow x5 = fun o => B (ix1 o) := funext hx5
  rw [e0, e1, e2, e3, e4, e5]

end Cert.KernelIdeal.Block

end
-- ==== Proof.KernelValue.lean ====
/-
  From blocks to the whole array.

  The grid has 32 points; point `t` reads rows `256·t … 256·t + 255` of the input and writes the same rows of the
  result; the four weight matrices and the bias are each one block, the same at every point.  Before the region the
  host transposes each weight matrix (and narrows it, which changes nothing here) and lays the bias out as one row.
  So what point `t` writes back is block `t` of the layer `G` of the six argument arrays, the 32 blocks cover the
  result, and the result array ends holding `G`.
-/
import proofs.«135336_j16252156248077_1_alg».proof.Proof.Gen.KernelIdeal.Value
import proofs.«135336_j16252156248077_1_alg».proof.Proof.BlockValue
import Idealize.ShloMosaic.Lib.ValueLayout
import Idealize.ShloMosaic.Lib.StableHlo.Run
import Idealize.ShloMosaic.Lib.Pipeline.Value

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Hamilton
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the six argument arrays as launched. -/
abbrev Gm (c : Dev nD) : S8192x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps over the grid: the input's and the result's block is block row `t`, column block 0; every
    other window stays at its one block. -/
theorem idx_rows : ∀ t : Fin cfg0.N, win0_0.index t (0 : Fin 2) = t.val ∧ win0_0.index t (1 : Fin 2) = 0
    ∧ win0_6.index t (0 : Fin 2) = t.val ∧ win0_6.index t (1 : Fin 2) = 0 :=
  (by decide +kernel : ∀ t : Fin grid0.N, _)

theorem idx_fixed : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## The windows the host wrote before the region -/

/-- Window 1's array, as the region finds it, is the transpose of the argument: entry `(k, o)` is `W (o, k)`. -/
theorem V_v1_apply (c : Dev nD) (k o : Fin 1024) :
    (V m c main_v1 : S1024x1024.Idx → EReal) (ix2 k o) = (m ((c : Thread nD τ).loc main_arg1) : S1024x1024.Idx → EReal) (ix2 o k) := by
  have e : (V m c main_v1 : S1024x1024.Idx → EReal)
      = (truncf .bf16 (transpose S1024x1024 [1, 0] (m ((c : Thread nD τ).loc main_arg1) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, truncf_apply]
  exact transpose_ix2_apply _ _ k o

/-- Window 1's one block is its whole array. -/
theorem iblk1_apply (c : Dev nD) (t : Fin cfg0.N) (k o : Fin 1024) :
    (iblk m c 1 t : Vec Ideal S1024x1024 .bf16) (ix2 k o) = (m ((c : Thread nD τ).loc main_arg1) : S1024x1024.Idx → EReal) (ix2 o k) := by
  obtain ⟨⟨f0, f1⟩, -⟩ := idx_fixed t
  show (V m c main_v1 : S1024x1024.Idx → EReal) (((cfg0.win 1).blk t).view.emb (ix2 k o)) = _
  have he : ((cfg0.win 1).blk t).view.emb (ix2 k o) = ix2 k o := by
    funext a; apply Fin.ext
    match a with
    | ⟨0, _⟩ => show win0_1.index t (0 : Fin 2) * 1024 + 1 * k.val = k.val; omega
    | ⟨1, _⟩ => show win0_1.index t (1 : Fin 2) * 1024 + 1 * o.val = o.val; omega
  rw [he]
  exact V_v1_apply m c k o

/-- Window 2's array, as the region finds it, is the transpose of the argument: entry `(k, o)` is `W (o, k)`. -/
theorem V_v3_apply (c : Dev nD) (k o : Fin 1024) :
    (V m c main_v3 : S1024x1024.Idx → EReal) (ix2 k o) = (m ((c : Thread nD τ).loc main_arg2) : S1024x1024.Idx → EReal) (ix2 o k) := by
  have e : (V m c main_v3 : S1024x1024.Idx → EReal)
      = (truncf .bf16 (transpose S1024x1024 [1, 0] (m ((c : Thread nD τ).loc main_arg2) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, truncf_apply]
  exact transpose_ix2_apply _ _ k o

/-- Window 2's one block is its whole array. -/
theorem iblk2_apply (c : Dev nD) (t : Fin cfg0.N) (k o : Fin 1024) :
    (iblk m c 2 t : Vec Ideal S1024x1024 .bf16) (ix2 k o) = (m ((c : Thread nD τ).loc main_arg2) : S1024x1024.Idx → EReal) (ix2 o k) := by
  obtain ⟨-, ⟨f0, f1⟩, -⟩ := idx_fixed t
  show (V m c main_v3 : S1024x1024.Idx → EReal) (((cfg0.win 2).blk t).view.emb (ix2 k o)) = _
  have he : ((cfg0.win 2).blk t).view.emb (ix2 k o) = ix2 k o := by
    funext a; apply Fin.ext
    match a with
    | ⟨0, _⟩ => show win0_2.index t (0 : Fin 2) * 1024 + 1 * k.val = k.val; omega
    | ⟨1, _⟩ => show win0_2.index t (1 : Fin 2) * 1024 + 1 * o.val = o.val; omega
  rw [he]
  exact V_v3_apply m c k o

/-- Window 3's array, as the region finds it, is the transpose of the argument: entry `(k, o)` is `W (o, k)`. -/
theorem V_v5_apply (c : Dev nD) (k o : Fin 1024) :
    (V m c main_v5 : S1024x1024.Idx → EReal) (ix2 k o) = (m ((c : Thread nD τ).loc main_arg3) : S1024x1024.Idx → EReal) (ix2 o k) := by
  have e : (V m c main_v5 : S1024x1024.Idx → EReal)
      = (truncf .bf16 (transpose S1024x1024 [1, 0] (m ((c : Thread nD τ).loc main_arg3) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, truncf_apply]
  exact transpose_ix2_apply _ _ k o

/-- Window 3's one block is its whole array. -/
theorem iblk3_apply (c : Dev nD) (t : Fin cfg0.N) (k o : Fin 1024) :
    (iblk m c 3 t : Vec Ideal S1024x1024 .bf16) (ix2 k o) = (m ((c : Thread nD τ).loc main_arg3) : S1024x1024.Idx → EReal) (ix2 o k) := by
  obtain ⟨-, -, ⟨f0, f1⟩, -⟩ := idx_fixed t
  show (V m c main_v5 : S1024x1024.Idx → EReal) (((cfg0.win 3).blk t).view.emb (ix2 k o)) = _
  have he : ((cfg0.win 3).blk t).view.emb (ix2 k o) = ix2 k o := by
    funext a; apply Fin.ext
    match a with
    | ⟨0, _⟩ => show win0_3.index t (0 : Fin 2) * 1024 + 1 * k.val = k.val; omega
    | ⟨1, _⟩ => show win0_3.index t (1 : Fin 2) * 1024 + 1 * o.val = o.val; omega
  rw [he]
  exact V_v5_apply m c k o

/-- Window 4's array, as the region finds it, is the transpose of the argument: entry `(k, o)` is `W (o, k)`. -/
theorem V_v7_apply (c : Dev nD) (k o : Fin 1024) :
    (V m c main_v7 : S1024x1024.Idx → EReal) (ix2 k o) = (m ((c : Thread nD τ).loc main_arg4) : S1024x1024.Idx → EReal) (ix2 o k) := by
  have e : (V m c main_v7 : S1024x1024.Idx → EReal)
      = (truncf .bf16 (transpose S1024x1024 [1, 0] (m ((c : Thread nD τ).loc main_arg4) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, truncf_apply]
  exact transpose_ix2_apply _ _ k o

/-- Window 4's one block is its whole array. -/
theorem iblk4_apply (c : Dev nD) (t : Fin cfg0.N) (k o : Fin 1024) :
    (iblk m c 4 t : Vec Ideal S1024x1024 .bf16) (ix2 k o) = (m ((c : Thread nD τ).loc main_arg4) : S1024x1024.Idx → EReal) (ix2 o k) := by
  obtain ⟨-, -, -, ⟨f0, f1⟩, -⟩ := idx_fixed t
  show (V m c main_v7 : S1024x1024.Idx → EReal) (((cfg0.win 4).blk t).view.emb (ix2 k o)) = _
  have he : ((cfg0.win 4).blk t).view.emb (ix2 k o) = ix2 k o := by
    funext a; apply Fin.ext
    match a with
    | ⟨0, _⟩ => show win0_4.index t (0 : Fin 2) * 1024 + 1 * k.val = k.val; omega
    | ⟨1, _⟩ => show win0_4.index t (1 : Fin 2) * 1024 + 1 * o.val = o.val; omega
  rw [he]
  exact V_v7_apply m c k o

/-- The bias window's array, as the region finds it, is the bias laid out as one row. -/
theorem V_v8_apply (c : Dev nD) (o : Fin 1024) :
    (V m c main_v8 : S1x1024.Idx → EReal) (ix2 (0 : Fin 1) o) = (m ((c : Thread nD τ).loc main_arg5) : S1024.Idx → EReal) (ix1 o) := by
  have e : (V m c main_v8 : S1x1024.Idx → EReal)
      = shapeCast S1x1024 (m ((c : Thread nD τ).loc main_arg5) : S1024.Idx → EReal) shapeCasts_S1024_S1x1024 := by
    dsimp only [Gen.V, Gen.hostOps0]; after_results; rfl
  rw [e]
  exact shapeCast_a_1a_apply _ _ 0 o

/-- The bias window's one block is its whole array. -/
theorem iblk5_apply (c : Dev nD) (t : Fin cfg0.N) (o : Fin 1024) :
    (iblk m c 5 t : Vec Ideal S1x1024 .f32) (ix2 (0 : Fin 1) o) = (m ((c : Thread nD τ).loc main_arg5) : S1024.Idx → EReal) (ix1 o) := by
  obtain ⟨-, -, -, -, f0, f1⟩ := idx_fixed t
  show (V m c main_v8 : S1x1024.Idx → EReal) (((cfg0.win 5).blk t).view.emb (ix2 (0 : Fin 1) o)) = _
  have he : ((cfg0.win 5).blk t).view.emb (ix2 (0 : Fin 1) o) = ix2 (0 : Fin 1) o := by
    funext a; apply Fin.ext
    match a with
    | ⟨0, _⟩ => show win0_5.index t (0 : Fin 2) * 1 + 1 * 0 = 0; omega
    | ⟨1, _⟩ => show win0_5.index t (1 : Fin 2) * 1024 + 1 * o.val = o.val; omega
  rw [he]
  exact V_v8_apply m c o

/-! ## What a point writes back, the cover, the run -/

/-- Row `p` of the input window's block at point `t` is row `256·t + p` of the input — the row of the result's block. -/
theorem iblk0_apply (c : Dev nD) (t : Fin cfg0.N) (y : S256x4096.Idx) (q : Fin 4096) :
    (iblk m c 0 t : Vec Ideal S256x4096 .f32) (ix2 (y 0) q)
      = (m ((c : Thread nD τ).loc main_arg0) : S8192x4096.Idx → EReal) (ix2 ((((cfg0.win 6).blk t).view.emb y) 0) q) := by
  obtain ⟨e0, e1, e2, e3⟩ := idx_rows t
  show (V m c main_arg0 : S8192x4096.Idx → EReal) (((cfg0.win 0).blk t).view.emb (ix2 (y 0) q)) = _
  rw [V_main_arg0]
  refine congrArg _ (funext fun a => Fin.ext ?_)
  match a with
  | ⟨0, _⟩ => show win0_0.index t (0 : Fin 2) * 256 + 1 * (y 0).val = win0_6.index t (0 : Fin 2) * 256 + 1 * (y 0).val; omega
  | ⟨1, _⟩ => show win0_0.index t (1 : Fin 2) * 4096 + 1 * q.val = q.val; omega

/-- WHAT POINT `t` WRITES BACK is block `t` of the layer of the argument arrays. -/
theorem flushed_eq (c : Dev nD) (t : Fin cfg0.N) :
    (dats m 0 c).flushed 6 t = ((cfg0.win 6).blk t).view.read (Elt Ideal) (Gm m c) := by
  rw [Value.flushed6]
  unfold out0_6
  rw [View.canon_unit_zero hz]
  simp only [View.ld_unit_zero (S := S256x4096) hz, View.ld_unit_zero (S := S1024x1024) hz, View.ld_unit_zero (S := S1x1024) hz]
  refine funext fun (y : S256x4096.Idx) => ?_
  obtain ⟨e0, e1, e2, e3⟩ := idx_rows t
  exact block_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) y (((cfg0.win 6).blk t).view.emb y)
    (iblk0_apply m c t y) (iblk1_apply m c t) (iblk2_apply m c t) (iblk3_apply m c t) (iblk4_apply m c t) (iblk5_apply m c t)
    (by show win0_6.index t (1 : Fin 2) * 4096 + 1 * (y 1).val = (y 1).val; omega)

/-- An index of the result is in point `t`'s block iff each coordinate is in the block's range on its axis. -/
theorem mem_blk (t : Fin cfg0.N) (i : S8192x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v9).slice (win0_6.rect t)).set ↔ _
  rw [View.set_slice_whole, Rect.mem_set_unit]
  exact Iff.rfl

/-- Every index of the result is in the block of the point that holds its row. -/
theorem cover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 32 := N_0
  refine ⟨⟨(i 0).val / 256, by rw [hN]; omega⟩, flush0_6 _, ?_⟩
  rw [mem_blk]
  obtain ⟨e0, e1, e2, e3⟩ := idx_rows ⟨(i 0).val / 256, by rw [hN]; omega⟩
  intro a
  match a with
  | ⟨0, _⟩ =>
    show win0_6.index ⟨(i 0).val / 256, _⟩ (0 : Fin 2) * 256 ≤ (i 0).val ∧ (i 0).val < win0_6.index ⟨(i 0).val / 256, _⟩ (0 : Fin 2) * 256 + 256
    rw [e2]; show (i 0).val / 256 * 256 ≤ (i 0).val ∧ (i 0).val < (i 0).val / 256 * 256 + 256; omega
  | ⟨1, _⟩ =>
    show win0_6.index ⟨(i 0).val / 256, _⟩ (1 : Fin 2) * 4096 ≤ (i 1).val ∧ (i 1).val < win0_6.index ⟨(i 0).val / 256, _⟩ (1 : Fin 2) * 4096 + 4096
    rw [e3]; omega

/-- THE RESULT ARRAY after the run is the layer of the argument arrays. -/
theorem final (c : Dev nD) : (dats m 0 c).arrAt 6 cfg0.N = Gm m c :=
  (dats m 0 c).arrAt_eq_of_cover 6 (Gm m c) (fun t _ => flushed_eq m c t) (cover)

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefRead.lean ====
/-
  The host program, entry by entry, is the same layer.

  The host program splits each row of the input into its four quarters by a reshape and a transposition (entry
  `(c, n, k)` of the rearranged array is entry `(n, c·1024 + k)` of the input), contracts the last axis against each
  weight matrix (entry `(c, n, o)` of a product is the sum over `k` of that times `W (o, k)`), adds the bias to the
  products of the first matrix, cuts each product into its four slabs `c = 0, 1, 2, 3`, combines the slabs by the
  Hamilton rule in the same order as the specification, and joins the four results along the columns.
-/
import proofs.«135336_j16252156248077_1_alg».proof.Proof.Gen.ReferenceIdeal.Read
import proofs.«135336_j16252156248077_1_alg».proof.Proof.Hamilton
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx
  Hamilton RowOps

/-- A weight matrix read with the output index first, as it is stored. -/
abbrev wM (w : (⟨S1024x1024, .f32⟩ : BufTy).Contents (Elt Ideal)) : Fin 1024 → Fin 1024 → EReal := fun o k => w (ix2 o k)
/-- The bias as a function of the output index. -/
abbrev bV (b : (⟨S1024, .f32⟩ : BufTy).Contents (Elt Ideal)) : Fin 1024 → EReal := fun o => b (ix1 o)
/-- Row `n` of the input. -/
abbrev xRow (x : (⟨S8192x4096, .f32⟩ : BufTy).Contents (Elt Ideal)) (n : Fin 8192) : Fin 4096 → EReal := fun j => x (ix2 n j)

/-- The rearranged input at an index whose coordinates are `(c, n, k)` is the input at `(n, c·1024 + k)`. -/
theorem x_read (x0 : (⟨S8192x4096, .f32⟩ : BufTy).Contents (Elt Ideal)) (l : S4x8192x1024.Idx) (c : Fin 4) (n : Fin 8192)
    (k : Fin 1024) (h0 : (l 0).val = c.val) (h1 : (l 1).val = n.val) (h2 : (l 2).val = k.val) :
    val_main_v1 (F := Ideal) x0 l = x0 (ix2 n (qcol c k)) := by
  rw [val_main_v1_apply, val_main_v0_apply]
  refine congrArg x0 (funext fun a => Fin.ext ?_)
  have hc := c.isLt; have hn := n.isLt; have hk := k.isLt
  match a with
  | ⟨0, _⟩ => show (((l 1).val * 4 + (l 0).val) * 1024 + (l 2).val) / 4096 = n.val; omega
  | ⟨1, _⟩ => show (((l 1).val * 4 + (l 0).val) * 1024 + (l 2).val) % 4096 = c.val * 1024 + k.val; omega

section Products
variable (x0 : (⟨S8192x4096, .f32⟩ : BufTy).Contents (Elt Ideal)) (x1 x2 x3 x4 : (⟨S1024x1024, .f32⟩ : BufTy).Contents (Elt Ideal))
  (x5 : (⟨S1024, .f32⟩ : BufTy).Contents (Elt Ideal)) (c : Fin 4) (n : Fin 8192) (o : Fin 1024)

/-- The product with the first matrix at `(c, n, o)`. -/
theorem lin2 : val_main_v2 (F := Ideal) x0 x1 (ix3 c n o) = qlin (wM x1) (xRow x0 n) c o := by
  rw [val_main_v2_apply]
  unfold qlin
  refine Finset.sum_congr rfl fun k _ => ?_
  rw [x_read x0 (lidx_main_v2 (ix3 c n o) k) c n k rfl rfl rfl]
  exact congrArg (fun t => x0 (ix2 n (qcol c k)) * x1 t)
    (funext fun a => Fin.ext (by match a with | ⟨0, _⟩ => rfl | ⟨1, _⟩ => rfl))

/-- The product with the second matrix at `(c, n, o)`. -/
theorem lin6 : val_main_v6 (F := Ideal) x0 x2 (ix3 c n o) = qlin (wM x2) (xRow x0 n) c o := by
  rw [val_main_v6_apply]
  unfold qlin
  refine Finset.sum_congr rfl fun k _ => ?_
  rw [x_read x0 (lidx_main_v6 (ix3 c n o) k) c n k rfl rfl rfl]
  exact congrArg (fun t => x0 (ix2 n (qcol c k)) * x2 t)
    (funext fun a => Fin.ext (by match a with | ⟨0, _⟩ => rfl | ⟨1, _⟩ => rfl))

/-- The product with the third matrix at `(c, n, o)`. -/
theorem lin7 : val_main_v7 (F := Ideal) x0 x3 (ix3 c n o) = qlin (wM x3) (xRow x0 n) c o := by
  rw [val_main_v7_apply]
  unfold qlin
  refine Finset.sum_congr rfl fun k _ => ?_
  rw [x_read x0 (lidx_main_v7 (ix3 c n o) k) c n k rfl rfl rfl]
  exact congrArg (fun t => x0 (ix2 n (qcol c k)) * x3 t)
    (funext fun a => Fin.ext (by match a with | ⟨0, _⟩ => rfl | ⟨1, _⟩ => rfl))

/-- The product with the fourth matrix at `(c, n, o)`. -/
theorem lin8 : val_main_v8 (F := Ideal) x0 x4 (ix3 c n o) = qlin (wM x4) (xRow x0 n) c o := by
  rw [val_main_v8_apply]
  unfold qlin
  refine Finset.sum_congr rfl fun k _ => ?_
  rw [x_read x0 (lidx_main_v8 (ix3 c n o) k) c n k rfl rfl rfl]
  exact congrArg (fun t => x0 (ix2 n (qcol c k)) * x4 t)
    (funext fun a => Fin.ext (by match a with | ⟨0, _⟩ => rfl | ⟨1, _⟩ => rfl))

/-- The bias broadcast over quarters and rows: at `(c, n, o)` it is entry `o`. -/
theorem bias4 : val_main_v4 (F := Ideal) x5 (ix3 c n o) = bV x5 o := by
  rw [val_main_v4_apply, val_main_v3_apply]
  exact congrArg x5 (funext fun a => Fin.ext (by match a with | ⟨0, _⟩ => rfl))

/-- The product with the first matrix, with the bias, at `(c, n, o)`. -/
theorem lin5 : val_main_v5 (F := Ideal) x0 x1 x5 (ix3 c n o) = qlin (wM x1) (xRow x0 n) c o + bV x5 o := by
  rw [val_main_v5_apply, Ideal.addf_def, lin2, bias4]

end Products

/-- Slab `c` of a `[4, 8192, 1024]` array, its unit axis dropped: entry `(n, o)` is entry `(c, n, o)`. -/
theorem slab_apply (y : S4x8192x1024.Idx → EReal) (c : ℕ) (hc : c < 4) (hs : S4x8192x1024.Slices ![c, 0, 0] S1x8192x1024)
    (hsc : S1x8192x1024.ShapeCasts S8192x1024) (n : Fin 8192) (o : Fin 1024) :
    shapeCast S8192x1024 (extractStridedSlice S1x8192x1024 ![c, 0, 0] y hs) hsc (ix2 n o) = y (ix3 (⟨c, hc⟩ : Fin 4) n o) := by
  rw [shapeCast_1ab_ab_apply]
  refine extractStridedSlice_apply _ y hs _ _ fun a => ?_
  match a with
  | ⟨0, _⟩ => show c = c + 0; omega
  | ⟨1, _⟩ => show n.val = 0 + n.val; omega
  | ⟨2, _⟩ => show o.val = 0 + o.val; omega

section Quarters
variable (x0 : (⟨S8192x4096, .f32⟩ : BufTy).Contents (Elt Ideal)) (x1 x2 x3 x4 : (⟨S1024x1024, .f32⟩ : BufTy).Contents (Elt Ideal))
  (x5 : (⟨S1024, .f32⟩ : BufTy).Contents (Elt Ideal)) (n : Fin 8192) (o : Fin 1024)

/-- The real quarter of the host's result. -/
theorem quarterR : val_main_v19 (F := Ideal) x0 x1 x2 x3 x4 x5 (ix2 n o)
    = partR (wM x1) (wM x2) (wM x3) (wM x4) (bV x5) (xRow x0 n) o := by
  unfold val_main_v19 val_main_v16 val_main_v13 val_main_v10 val_main_v9 val_main_v12 val_main_v11 val_main_v15 val_main_v14
    val_main_v18 val_main_v17
  simp only [subf_apply, addf_apply]
  rw [slab_apply _ 0 (by decide), slab_apply _ 1 (by decide), slab_apply _ 2 (by decide), slab_apply _ 3 (by decide),
    lin5, lin6, lin7, lin8]
  rfl

/-- The i quarter. -/
theorem quarterI : val_main_v30 (F := Ideal) x0 x1 x2 x3 x4 x5 (ix2 n o)
    = partI (wM x1) (wM x2) (wM x3) (wM x4) (bV x5) (xRow x0 n) o := by
  unfold val_main_v30 val_main_v27 val_main_v24 val_main_v21 val_main_v20 val_main_v23 val_main_v22 val_main_v26 val_main_v25
    val_main_v29 val_main_v28
  simp only [subf_apply, addf_apply]
  rw [slab_apply _ 0 (by decide), slab_apply _ 1 (by decide), slab_apply _ 2 (by decide), slab_apply _ 3 (by decide),
    lin5, lin6, lin7, lin8]
  rfl

/-- The j quarter. -/
theorem quarterJ : val_main_v41 (F := Ideal) x0 x1 x2 x3 x4 x5 (ix2 n o)
    = partJ (wM x1) (wM x2) (wM x3) (wM x4) (bV x5) (xRow x0 n) o := by
  unfold val_main_v41 val_main_v38 val_main_v35 val_main_v32 val_main_v31 val_main_v34 val_main_v33 val_main_v37 val_main_v36
    val_main_v40 val_main_v39
  simp only [subf_apply, addf_apply]
  rw [slab_apply _ 0 (by decide), slab_apply _ 1 (by decide), slab_apply _ 2 (by decide), slab_apply _ 3 (by decide),
    lin5, lin6, lin7, lin8]
  rfl

/-- The k quarter. -/
theorem quarterK : val_main_v52 (F := Ideal) x0 x1 x2 x3 x4 x5 (ix2 n o)
    = partK (wM x1) (wM x2) (wM x3) (wM x4) (bV x5) (xRow x0 n) o := by
  unfold val_main_v52 val_main_v49 val_main_v46 val_main_v43 val_main_v42 val_main_v45 val_main_v44 val_main_v48 val_main_v47
    val_main_v51 val_main_v50
  simp only [subf_apply, addf_apply]
  rw [slab_apply _ 0 (by decide), slab_apply _ 1 (by decide), slab_apply _ 2 (by decide), slab_apply _ 3 (by decide),
    lin5, lin6, lin7, lin8]
  rfl

/-- The host's result is the layer `G` of the six argument arrays. -/
theorem result_eq : val_main_v53 (F := Ideal) x0 x1 x2 x3 x4 x5 = G x0 x1 x2 x3 x4 x5 := by
  funext i
  obtain ⟨n, j, rfl⟩ : ∃ (n : Fin 8192) (j : Fin 4096), i = ix2 n j := ⟨i 0, i 1, eq_ix2 i⟩
  unfold val_main_v53
  rw [RowOps.cat4_apply _ _ _ _ _ (by norm_num) n j, G_apply]
  unfold hamRow
  congr 1 <;> funext o
  · exact quarterR x0 x1 x2 x3 x4 x5 n o
  · exact quarterI x0 x1 x2 x3 x4 x5 n o
  · exact quarterJ x0 x1 x2 x3 x4 x5 n o
  · exact quarterK x0 x1 x2 x3 x4 x5 n o

end Quarters

end Cert.ReferenceIdeal.RefValue

end
-- ==== Proof.lean ====
/-
  A quaternion dense layer: the kernel against its reference, over the extended reals.

  Both programs compute, for every row of the input `x : [8192, 4096]`, the Hamilton combination of sixteen
  quarter-sized matrix products (four weight matrices of [1024, 1024] against the four quarters of the row, a bias added to
  the products of the first matrix); `Hamilton.G` is that function of the six argument arrays.

  * The kernel walks the rows in 32 blocks of 256; the host transposes the weights first, and the body multiplies each
    quarter of its block by each transposed matrix, accumulates from zero by the Hamilton rule and stores the four
    accumulators side by side.  Entry by entry this is `G` (`Cert.KernelIdeal.Block.block_eq`), the 32 blocks cover
    the result, so the result array ends at `G` of the arguments (`Cert.KernelIdeal.Whole.run`).
  * The reference rearranges the input into its four quarters, contracts against each matrix, cuts the products into slabs
    and combines them in the same order; entry by entry this is `G` too (`Cert.ReferenceIdeal.RefValue.result_eq`).

  The two sides perform the same sums and differences in the same order (the kernel's leading `0 + a` is `a`), and a
  change of float format is the identity here, so the equality needs no finiteness: the precondition is never opened.
  The idealized kernel is the kernel's own text read over the extended reals (no operation was rewritten), so `preserves`
  is trivial; the frames are the generated ones, the reference's being its generated run with the result dropped.
-/
import proofs.«135336_j16252156248077_1_alg».proof.Defs
import proofs.«135336_j16252156248077_1_alg».proof.Proof.Gen.Kernel
import proofs.«135336_j16252156248077_1_alg».proof.Proof.Gen.Kernel.Skeleton
import proofs.«135336_j16252156248077_1_alg».proof.Proof.Gen.Kernel.Launch
import proofs.«135336_j16252156248077_1_alg».proof.Proof.Gen.Kernel.Points
import proofs.«135336_j16252156248077_1_alg».proof.Proof.Gen.Kernel.Frame
import proofs.«135336_j16252156248077_1_alg».proof.Proof.Gen.KernelIdeal
import proofs.«135336_j16252156248077_1_alg».proof.Proof.Gen.KernelIdeal.Skeleton
import proofs.«135336_j16252156248077_1_alg».proof.Proof.Gen.KernelIdeal.Launch
import proofs.«135336_j16252156248077_1_alg».proof.Proof.Gen.KernelIdeal.Points
import proofs.«135336_j16252156248077_1_alg».proof.Proof.Gen.KernelIdeal.Frame
import proofs.«135336_j16252156248077_1_alg».proof.Proof.Gen.ReferenceIdeal
import proofs.«135336_j16252156248077_1_alg».proof.Proof.Gen.Pre_finite_inputs
import proofs.«135336_j16252156248077_1_alg».proof.Proof.Gen.KernelIdeal.Value
import proofs.«135336_j16252156248077_1_alg».proof.Proof.Gen.ReferenceIdeal.Run
import proofs.«135336_j16252156248077_1_alg».proof.Proof.Gen.ReferenceIdeal.Read
import proofs.«135336_j16252156248077_1_alg».proof.Proof.KernelValue
import proofs.«135336_j16252156248077_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the layer `G` of the argument arrays, and the arguments agree. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.result_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
